-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x128 .f32) (main_arg3 : FVec F S128 .f32) (main_arg4 : FVec F S128x32 .f32) (main_arg5 : FVec F S32 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x32 : Shape := ⟨2, ![128, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S4000x512 : Shape := ⟨2, ![4000, 512]⟩
abbrev S4000x128 : Shape := ⟨2, ![4000, 128]⟩
abbrev S1700000x128 : Shape := ⟨2, ![1700000, 128]⟩
abbrev S1x128 : Shape := ⟨2, ![1, 128]⟩
abbrev S100000x32 : Shape := ⟨2, ![100000, 32]⟩
abbrev S10000x128 : Shape := ⟨2, ![10000, 128]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 84
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x32, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x32, .f32⟩
  | .hbm, ⟨74, _⟩ => ⟨S1700000x1, .f32⟩
  | .hbm, ⟨75, _⟩ => ⟨S1700000x32, .f32⟩
  | .hbm, ⟨76, _⟩ => ⟨S1700000x32, .f32⟩
  | .hbm, ⟨77, _⟩ => ⟨S_, .f32⟩
  | .hbm, ⟨78, _⟩ => ⟨S100000x32, .f32⟩
  | .hbm, ⟨79, _⟩ => ⟨S1700000x1, .i32⟩
  | .hbm, ⟨80, _⟩ => ⟨S100000x32, .f32⟩
  | .hbm, ⟨81, _⟩ => ⟨S1x32, .f32⟩
  | .hbm, ⟨82, _⟩ => ⟨S100000x32, .f32⟩
  | .hbm, ⟨83, _⟩ => ⟨S100000x32, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S4000x128, .f32⟩
  | .local _ .vmem, ⟨4, _⟩ => ⟨S4000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x32, .f32⟩
  | .local _ .vmem, ⟨9, _⟩ => ⟨S10000x32, .f32⟩
  | .local _ .vmem, ⟨10, _⟩ => ⟨S10000x32, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4000x128_S4000x128_0_0 : ∀ a, (![0, 0] : Fin 2 → Nat) a + S4000x128.size a ≤ S4000x128.size a
  h_S4000x128 : 0 < S4000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x512_S512x128_S4000x128_1_0_0_1_n_n_wf : DotDims.WF S4000x512 S512x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x32_S10000x32_1_0_0_1_n_n_wf : DotDims.WF S10000x128 S128x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .f32 = 32 ∨ (Rect.block (s := S128x32) S128x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x128 : Shape := ⟨2, ![512, 128]⟩
abbrev S128 : Shape := ⟨1, ![128]⟩
abbrev S128x32 : Shape := ⟨2, ![128, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Spec.lean ====
/-
  The two-layer graph convolution as ONE function of the six argument arrays, written once over the host
  operations both programs print.

  From the edge list `e : i32[2, 1600000]` both programs build, with the same operations,
    * `src`, `dst : i32[1700000]`  — row 0, resp. row 1, of `e` followed by the self loops 0 … 99999;
    * `deg`  — the number of entries of `dst` equal to each node (a scatter-add of ones into zeros);
    * `dinv` — `deg^(-1/2)` where `deg > 0`, else `0`;
    * `nrm = dinv[src] · dinv[dst]`, both gathers through indices wrapped by `+100000` where negative.
  A layer's aggregation of `h : f32[100000, w]` is `agg h = Σ_{j : dst j = ·} h[src j, ·] · nrm j`: a gather of the rows
  `src`, the row-wise product with `nrm`, a scatter-add into zeros at the rows `dst`.
  The result is `agg₃₂ (max (agg₁₂₈ (x · W1) + b1, 0) · W2) + b2`.

  Everything here except the two dense layers is common to the kernel's program and the reference's, so it is kept
  as named functions of `src`, `dst`, `nrm` and of the array `h` that goes in; nothing below opens them.
-/
import proofs.«152468_j3307124818738_1_alg».proof.ReferenceIdeal
import proofs.«152468_j3307124818738_1_alg».proof.Proof.Gen.ReferenceIdeal

noncomputable section

namespace Cert.Spec

open Cert.ReferenceIdeal Cert.ReferenceIdeal.Facts₀ Idealize.ShloMosaic Idealize.ShloMosaic.TcCoe

variable {F : FTy → Type} [FloatOps F]

/-- The source node of every aggregation edge. -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destination node of every aggregation edge. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index made non-negative the way an array subscript is (`v + 100000` where `v < 0`), as a column of
    gather indices. -/
def wrapIdx (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- A node index as a column of scatter indices (no wrapping: out-of-range rows are dropped by the scatter). -/
def colIdx (v : (⟨S1700000, .i32⟩ : BufTy).Contents (Elt F)) : (⟨S1700000x1, .i32⟩ : BufTy).Contents (Elt F) :=
  broadcastInDim S1700000x1 ![0] bcast_S1700000_S1700000x1_0 v

/-- The in-degree of every node, self loop included. -/
def degOf (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (colIdx dst) (broadcastInDim S1700000 ![] bcast_S_S1700000 (constant S_ .f32 0x3F800000#32))

/-- `deg^(-1/2)` where the degree is positive, `0` elsewhere. -/
def dinvOf (dst : (⟨S1700000, .i32⟩ : BufTy).Contents (Elt F)) : (⟨S100000, .f32⟩ : BufTy).Contents (Elt F) :=
  select (cmpf (F := F) .ogt (degOf dst) (broadcastInDim S100000 ![] bcast_S_S100000 (constant S_ .f32 0x00000000#32))) (Host.rsqrt (degOf dst)) (broadcastInDim S100000 ![] bcast_S_S100000 (id (constant S_ .f32 0x00000000#32)))

/-- The symmetric normalisation of every aggregation edge: `dinv[src] · dinv[dst]`. -/
def nrmOf (src dst : (⟨S1700000, .i32⟩ : BufTy).Contents (Elt F)) : (⟨S1700000, .f32⟩ : BufTy).Contents (Elt F) :=
  mulf (Host.gather gather_S100000_S1700000x1_S1700000_n_0_n_n_0_1_1 (dinvOf dst) (wrapIdx src)) (Host.gather gather_S100000_S1700000x1_S1700000_n_0_n_n_0_1_1 (dinvOf dst) (wrapIdx dst))

/-- The aggregation of a 128-wide feature array over the edges. -/
def agg128 (src dst : (⟨S1700000, .i32⟩ : BufTy).Contents (Elt F)) (nrm : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (colIdx dst) (mulf (Host.gather gather_S100000x128_S1700000x1_S1700000x128_1_0_n_n_0_1_1128 h (wrapIdx src)) (broadcastInDim S1700000x128 ![0, 1] bcast_S1700000x1_S1700000x128_0_1 (broadcastInDim S1700000x1 ![0] bcast_S1700000_S1700000x1_0 nrm)))

/-- The aggregation of a 32-wide feature array over the edges. -/
def agg32 (src dst : (⟨S1700000, .i32⟩ : BufTy).Contents (Elt F)) (nrm : (⟨S1700000, .f32⟩ : BufTy).Contents (Elt F))
    (h : (⟨S100000x32, .f32⟩ : BufTy).Contents (Elt F)) : (⟨S100000x32, .f32⟩ : BufTy).Contents (Elt F) :=
  Host.scatterAdd scatter_S100000x32_S1700000x1_S1700000x32_1_0_0_1 (broadcastInDim S100000x32 ![] bcast_S_S100000x32 (constant S_ .f32 0x00000000#32)) (colIdx dst) (mulf (Host.gather gather_S100000x32_S1700000x1_S1700000x32_1_0_n_n_0_1_132 h (wrapIdx src)) (broadcastInDim S1700000x32 ![0, 1] bcast_S1700000x1_S1700000x32_0_1 (broadcastInDim S1700000x1 ![0] bcast_S1700000_S1700000x1_0 nrm)))

/-- The last step: the second aggregation plus the class bias on every row. -/
def outOf (src dst : (⟨S1700000, .i32⟩ : BufTy).Contents (Elt F)) (nrm : (⟨S1700000, .f32⟩ : BufTy).Contents (Elt F))
    (h2 : (⟨S100000x32, .f32⟩ : BufTy).Contents (Elt F)) (b2 : (⟨S32, .f32⟩ : BufTy).Contents (Elt F)) : (⟨S100000x32, .f32⟩ : BufTy).Contents (Elt F) :=
  addf (agg32 src dst nrm h2) (broadcastInDim S100000x32 ![0, 1] bcast_S1x32_S100000x32_0_1 (broadcastInDim S1x32 ![1] bcast_S32_S1x32_1 b2))

/-- The first dense layer as the reference computes it: `x · W1`, one product of whole arrays. -/
def dense1 (x : (⟨S100000x512, .f32⟩ : BufTy).Contents (Elt F)) (W1 : (⟨S512x128, .f32⟩ : BufTy).Contents (Elt F)) : (⟨S100000x128, .f32⟩ : BufTy).Contents (Elt F) :=
  Host.dotGeneral dot_S100000x512_S512x128_S100000x128_1_0_0_1_n_n none x W1

/-- The second dense layer over a bias already laid out as a row `[1, 128]`: `max (a + row, 0) · W2`, the row added to
    every row of `a`. -/
def dense2Row (a : (⟨S100000x128, .f32⟩ : BufTy).Contents (Elt F)) (row : (⟨S1x128, .f32⟩ : BufTy).Contents (Elt F))
    (W2 : (⟨S128x32, .f32⟩ : BufTy).Contents (Elt F)) : (⟨S100000x32, .f32⟩ : BufTy).Contents (Elt F) :=
  Host.dotGeneral dot_S100000x128_S128x32_S100000x32_1_0_0_1_n_n none (maximumf (addf a (broadcastInDim S100000x128 ![0, 1] bcast_S1x128_S100000x128_0_1 row)) (broadcastInDim S100000x128 ![] bcast_S_S100000x128 (constant S_ .f32 0x00000000#32))) W2

/-- The second dense layer as the reference computes it: `max (a + b1, 0) · W2`, the bias `b1 : f32[128]` laid out as a row
    by a broadcast along a new leading axis. -/
def dense2 (a : (⟨S100000x128, .f32⟩ : BufTy).Contents (Elt F)) (b1 : (⟨S128, .f32⟩ : BufTy).Contents (Elt F))
    (W2 : (⟨S128x32, .f32⟩ : BufTy).Contents (Elt F)) : (⟨S100000x32, .f32⟩ : BufTy).Contents (Elt F) :=
  dense2Row a (broadcastInDim S1x128 ![1] bcast_S128_S1x128_1 b1) W2

/-- The whole network, from given hidden layers: `out = agg₃₂ (L2 (agg₁₂₈ h1)) + b2` where `h1` is the first dense
    layer's output and `L2` the second dense layer. -/
def network (e : (⟨S2x1600000, .i32⟩ : BufTy).Contents (Elt F)) (b2 : (⟨S32, .f32⟩ : BufTy).Contents (Elt F))
    (h1 : (⟨S100000x128, .f32⟩ : BufTy).Contents (Elt F))
    (L2 : (⟨S100000x128, .f32⟩ : BufTy).Contents (Elt F) → (⟨S100000x32, .f32⟩ : BufTy).Contents (Elt F)) : (⟨S100000x32, .f32⟩ : BufTy).Contents (Elt F) :=
  outOf (srcOf e) (dstOf e) (nrmOf (srcOf e) (dstOf e)) (L2 (agg128 (srcOf e) (dstOf e) (nrmOf (srcOf e) (dstOf e)) h1)) b2

/-- The reference's function of the six arguments. -/
def result (x : (⟨S100000x512, .f32⟩ : BufTy).Contents (Elt F)) (e : (⟨S2x1600000, .i32⟩ : BufTy).Contents (Elt F))
    (W1 : (⟨S512x128, .f32⟩ : BufTy).Contents (Elt F)) (b1 : (⟨S128, .f32⟩ : BufTy).Contents (Elt F))
    (W2 : (⟨S128x32, .f32⟩ : BufTy).Contents (Elt F)) (b2 : (⟨S32, .f32⟩ : BufTy).Contents (Elt F)) : (⟨S100000x32, .f32⟩ : BufTy).Contents (Elt F) :=
  network e b2 (dense1 x W1) (fun a => dense2 a b1 W2)

end Cert.Spec

end
-- ==== Proof.Region0.lean ====
/-
  The first pallas_call: 25 row blocks of 4000 rows. At a point the body multiplies the point's block of `x` (4000 × 512)
  by the whole `W1` (512 × 128) into a zero accumulator and stores the product as the point's block of the output. Entry
  (r, j) of the output array is therefore Σ_k x[r, k] · W1[k, j], the same sum the whole-array product `x · W1` has there:
  the blocks tile the rows, and a row's sum reads only that row of `x`.
-/
import proofs.«152468_j3307124818738_1_alg».proof.Proof.Gen.KernelIdeal.Frame
import proofs.«152468_j3307124818738_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat Cfg Window)

/-! ## A product's entry is the sum, over the contracted index, of the operands' products

Both the kernel's block product and the reference's whole product contract the second axis of the left operand against
the first axis of the right one. At an output index `(r, j)` and a contraction index `k` the left operand is read at
`(r, k)` and the right one at `(k, j)`. -/

/-! ### The block product's axes (4000 × 512 by 512 × 128) -/

theorem lhsB_0 (i : S4000x128.Idx) (q : dot_S4000x512_S512x128_S4000x128_1_0_0_1_n_n.contr.Idx) : (dot_S4000x512_S512x128_S4000x128_1_0_0_1_n_n.lhsIdx i q 0).val = (i 0).val := by
  unfold DotDims.lhsIdx
  rw [dif_neg (show ¬(0 : Fin S4000x512.rank) ∈ dot_S4000x512_S512x128_S4000x128_1_0_0_1_n_n.lhsBatch by decide), dif_pos (show (0 : Fin S4000x512.rank) ∈ dot_S4000x512_S512x128_S4000x128_1_0_0_1_n_n.lhsNonContracting by decide)]
  rfl
theorem lhsB_1 (i : S4000x128.Idx) (q : dot_S4000x512_S512x128_S4000x128_1_0_0_1_n_n.contr.Idx) : (dot_S4000x512_S512x128_S4000x128_1_0_0_1_n_n.lhsIdx i q 1).val = (q ⟨0, by decide⟩).val :=
  dot_S4000x512_S512x128_S4000x128_1_0_0_1_n_n.lhsIdx_val_of_single rfl i q
theorem rhsB_0 (i : S4000x128.Idx) (q : dot_S4000x512_S512x128_S4000x128_1_0_0_1_n_n.contr.Idx) : (dot_S4000x512_S512x128_S4000x128_1_0_0_1_n_n.rhsIdx i q 0).val = (q ⟨0, by decide⟩).val :=
  dot_S4000x512_S512x128_S4000x128_1_0_0_1_n_n.rhsIdx_val_of_single rfl i q
theorem rhsB_1 (i : S4000x128.Idx) (q : dot_S4000x512_S512x128_S4000x128_1_0_0_1_n_n.contr.Idx) : (dot_S4000x512_S512x128_S4000x128_1_0_0_1_n_n.rhsIdx i q 1).val = (i 1).val := by
  unfold DotDims.rhsIdx
  rw [dif_neg (show ¬(1 : Fin S512x128.rank) ∈ dot_S4000x512_S512x128_S4000x128_1_0_0_1_n_n.rhsBatch by decide), dif_pos (show (1 : Fin S512x128.rank) ∈ dot_S4000x512_S512x128_S4000x128_1_0_0_1_n_n.rhsNonContracting by decide)]
  rfl

/-! ### The whole product's axes (100000 × 512 by 512 × 128) -/

theorem lhsA_0 (i : Cert.ReferenceIdeal.S100000x128.Idx) (q : Cert.ReferenceIdeal.dot_S100000x512_S512x128_S100000x128_1_0_0_1_n_n.contr.Idx) : (Cert.ReferenceIdeal.dot_S100000x512_S512x128_S100000x128_1_0_0_1_n_n.lhsIdx i q 0).val = (i 0).val := by
  unfold DotDims.lhsIdx
  rw [dif_neg (show ¬(0 : Fin Cert.ReferenceIdeal.S100000x512.rank) ∈ Cert.ReferenceIdeal.dot_S100000x512_S512x128_S100000x128_1_0_0_1_n_n.lhsBatch by decide), dif_pos (show (0 : Fin Cert.ReferenceIdeal.S100000x512.rank) ∈ Cert.ReferenceIdeal.dot_S100000x512_S512x128_S100000x128_1_0_0_1_n_n.lhsNonContracting by decide)]
  rfl
theorem lhsA_1 (i : Cert.ReferenceIdeal.S100000x128.Idx) (q : Cert.ReferenceIdeal.dot_S100000x512_S512x128_S100000x128_1_0_0_1_n_n.contr.Idx) : (Cert.ReferenceIdeal.dot_S100000x512_S512x128_S100000x128_1_0_0_1_n_n.lhsIdx i q 1).val = (q ⟨0, by decide⟩).val :=
  Cert.ReferenceIdeal.dot_S100000x512_S512x128_S100000x128_1_0_0_1_n_n.lhsIdx_val_of_single rfl i q
theorem rhsA_0 (i : Cert.ReferenceIdeal.S100000x128.Idx) (q : Cert.ReferenceIdeal.dot_S100000x512_S512x128_S100000x128_1_0_0_1_n_n.contr.Idx) : (Cert.ReferenceIdeal.dot_S100000x512_S512x128_S100000x128_1_0_0_1_n_n.rhsIdx i q 0).val = (q ⟨0, by decide⟩).val :=
  Cert.ReferenceIdeal.dot_S100000x512_S512x128_S100000x128_1_0_0_1_n_n.rhsIdx_val_of_single rfl i q
theorem rhsA_1 (i : Cert.ReferenceIdeal.S100000x128.Idx) (q : Cert.ReferenceIdeal.dot_S100000x512_S512x128_S100000x128_1_0_0_1_n_n.contr.Idx) : (Cert.ReferenceIdeal.dot_S100000x512_S512x128_S100000x128_1_0_0_1_n_n.rhsIdx i q 1).val = (i 1).val := by
  unfold DotDims.rhsIdx
  rw [dif_neg (show ¬(1 : Fin Cert.ReferenceIdeal.S512x128.rank) ∈ Cert.ReferenceIdeal.dot_S100000x512_S512x128_S100000x128_1_0_0_1_n_n.rhsBatch by decide), dif_pos (show (1 : Fin Cert.ReferenceIdeal.S512x128.rank) ∈ Cert.ReferenceIdeal.dot_S100000x512_S512x128_S100000x128_1_0_0_1_n_n.rhsNonContracting by decide)]
  rfl

/-- What the body computes at a point, entry by entry: the block of `x` times `W1`, with no accumulator left (the
    accumulator is the zero array) and no rounding (a change of float format is the identity on the extended reals). -/
theorem blockProduct_apply (xb : Vec Ideal S4000x512 .f32) (w : Vec Ideal S512x128 .f32) (p : Fin 4000) (q : Fin 128) :
    k0_pay1 (F := Ideal) xb w (ValueIdx.ix2 p q) = ∑ k : Fin 512, xb (ValueIdx.ix2 p k) * w (ValueIdx.ix2 k q) := by
  unfold k0_pay1
  refine (Ideal.matmul_constant_zero_apply dot_S4000x512_S512x128_S4000x128_1_0_0_1_n_n none _ _ (ValueIdx.ix2 p q)).trans ?_
  rw [← Equiv.sum_comp (ValueIdx.contrEquiv1 dot_S4000x512_S512x128_S4000x128_1_0_0_1_n_n 512 rfl rfl).symm]
  refine Finset.sum_congr rfl fun k _ => ?_
  have hk := ValueIdx.contrEquiv1_symm_val dot_S4000x512_S512x128_S4000x128_1_0_0_1_n_n 512 rfl rfl k
  have el : dot_S4000x512_S512x128_S4000x128_1_0_0_1_n_n.lhsIdx (ValueIdx.ix2 p q) ((ValueIdx.contrEquiv1 dot_S4000x512_S512x128_S4000x128_1_0_0_1_n_n 512 rfl rfl).symm k) = ValueIdx.ix2 p k := funext fun a => Fin.ext (by
    match a with
    | ⟨0, _⟩ => exact lhsB_0 _ _
    | ⟨1, _⟩ => exact (lhsB_1 _ _).trans hk)
  have er : dot_S4000x512_S512x128_S4000x128_1_0_0_1_n_n.rhsIdx (ValueIdx.ix2 p q) ((ValueIdx.contrEquiv1 dot_S4000x512_S512x128_S4000x128_1_0_0_1_n_n 512 rfl rfl).symm k) = ValueIdx.ix2 k q := funext fun a => Fin.ext (by
    match a with
    | ⟨0, _⟩ => exact (rhsB_0 _ _).trans hk
    | ⟨1, _⟩ => exact rhsB_1 _ _)
  rw [el, er]
  rfl

/-- The whole product `x · W1`, entry by entry. -/
theorem dense1_apply (x : (⟨Cert.ReferenceIdeal.S100000x512, .f32⟩ : BufTy).Contents (Elt Ideal))
    (w : (⟨Cert.ReferenceIdeal.S512x128, .f32⟩ : BufTy).Contents (Elt Ideal)) (r : Fin 100000) (q : Fin 128) :
    Cert.Spec.dense1 (F := Ideal) x w (ValueIdx.ix2 r q) = ∑ k : Fin 512, x (ValueIdx.ix2 r k) * w (ValueIdx.ix2 k q) := by
  unfold Cert.Spec.dense1
  simp only [Host.dotGeneral]
  rw [Ideal.dotGeneral_apply]
  rw [← Equiv.sum_comp (ValueIdx.contrEquiv1 Cert.ReferenceIdeal.dot_S100000x512_S512x128_S100000x128_1_0_0_1_n_n 512 rfl rfl).symm]
  refine Finset.sum_congr rfl fun k _ => ?_
  have hk := ValueIdx.contrEquiv1_symm_val Cert.ReferenceIdeal.dot_S100000x512_S512x128_S100000x128_1_0_0_1_n_n 512 rfl rfl k
  have el : Cert.ReferenceIdeal.dot_S100000x512_S512x128_S100000x128_1_0_0_1_n_n.lhsIdx (ValueIdx.ix2 r q) ((ValueIdx.contrEquiv1 Cert.ReferenceIdeal.dot_S100000x512_S512x128_S100000x128_1_0_0_1_n_n 512 rfl rfl).symm k) = ValueIdx.ix2 r k := funext fun a => Fin.ext (by
    match a with
    | ⟨0, _⟩ => exact lhsA_0 _ _
    | ⟨1, _⟩ => exact (lhsA_1 _ _).trans hk)
  have er : Cert.ReferenceIdeal.dot_S100000x512_S512x128_S100000x128_1_0_0_1_n_n.rhsIdx (ValueIdx.ix2 r q) ((ValueIdx.contrEquiv1 Cert.ReferenceIdeal.dot_S100000x512_S512x128_S100000x128_1_0_0_1_n_n 512 rfl rfl).symm k) = ValueIdx.ix2 k q := funext fun a => Fin.ext (by
    match a with
    | ⟨0, _⟩ => exact (rhsA_0 _ _).trans hk
    | ⟨1, _⟩ => exact rhsA_1 _ _)
  rw [el, er]

/-! ## From blocks to the array

Point `t` of the 25 reads rows `4000 t … 4000 t + 3999` of `x` and all of `W1`, and writes rows `4000 t … 4000 t + 3999` of the
output. Row `r` of the output is written by the point `r / 4000`, so the 25 blocks cover the array. -/

theorem hz : (![0, 0] : Fin 2 → Nat) = fun _ => 0 := funext fun a => by fin_cases a <;> rfl

/-- The printed index maps over the grid: the block of `x` and the block of the output move down with the point, the
    block of `W1` stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section Blocks

variable (V : (c : Dev nD) → (b : Ref sig .tc) → Buf (Elt Ideal) ((c : Thread nD τ).loc b)) (c : Dev nD)

/-- The block of `x` at point `t`, entry `y`, is the array's entry in row `4000 t + y₀`, column `y₁`. -/
theorem xblock_apply (t : Fin cfg0.N) (y : S4000x512.Idx) (k : S100000x512.Idx)
    (hk0 : (k 0).val = 4000 * t.val + (y 0).val) (hk1 : (k 1).val = (y 1).val) :
    (iblk0 V c 0 t : Vec Ideal S4000x512 .f32) y = (V c main_arg0 : S100000x512.Idx → Elt Ideal .f32) k := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t 0 * 4000 + 1 * (y 0).val = (k 0).val; rw [e0, hk0]; omega
  | ⟨1, _⟩ => show win0_0.index t 1 * 512 + 1 * (y 1).val = (k 1).val; rw [e1, hk1]; omega

/-- The block of `W1` at any point is the whole array. -/
theorem wblock_apply (t : Fin cfg0.N) (y : S512x128.Idx) (k : S512x128.Idx)
    (hk0 : (k 0).val = (y 0).val) (hk1 : (k 1).val = (y 1).val) :
    (iblk0 V c 1 t : Vec Ideal S512x128 .f32) y = (V c main_arg2 : S512x128.Idx → Elt Ideal .f32) k := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t 0 * 512 + 1 * (y 0).val = (k 0).val; rw [e2, hk0]; omega
  | ⟨1, _⟩ => show win0_1.index t 1 * 128 + 1 * (y 1).val = (k 1).val; rw [e3, hk1]; omega

/-- WHAT POINT `t` WRITES BACK is block `t` of the whole product `x · W1`. -/
theorem flushed_eq (t : Fin cfg0.N) :
    (dat0 (F := Ideal) V c).flushed 2 t
      = ((cfg0.win 2).blk t).view.read (Elt Ideal) (Cert.Spec.dense1 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x128) hz]
  obtain ⟨-, -, -, -, e4, e5⟩ := idx_facts t
  have hN : t.val < 25 := lt_of_lt_of_eq t.isLt N_0
  funext j
  obtain ⟨p, q, rfl⟩ : ∃ (p : Fin 4000) (q : Fin 128), j = ValueIdx.ix2 p q := ⟨j 0, j 1, ValueIdx.eq_ix2 j⟩
  have hr : 4000 * t.val + p.val < 100000 := by have := p.isLt; omega
  rw [View.read_apply]
  have he : ((cfg0.win 2).blk t).view.emb (ValueIdx.ix2 p q) = ValueIdx.ix2 (⟨4000 * t.val + p.val, hr⟩ : Fin 100000) q := by
    funext a
    apply Fin.ext
    match a with
    | ⟨0, _⟩ => show win0_2.index t 0 * 4000 + 1 * p.val = 4000 * t.val + p.val; rw [e4]; omega
    | ⟨1, _⟩ => show win0_2.index t 1 * 128 + 1 * q.val = q.val; rw [e5]; omega
  rw [he, dense1_apply]
  show k0_pay1 (F := Ideal) (iblk0 V c 0 t) (iblk0 V c 1 t) (ValueIdx.ix2 p q) = _
  refine (blockProduct_apply (iblk0 V c 0 t) (iblk0 V c 1 t) p q).trans ?_
  refine Finset.sum_congr rfl fun k _ => ?_
  rw [xblock_apply V c t (ValueIdx.ix2 p k) (ValueIdx.ix2 (⟨4000 * t.val + p.val, hr⟩ : Fin 100000) k) rfl rfl,
    wblock_apply V c t (ValueIdx.ix2 k q) (ValueIdx.ix2 k q) rfl rfl]

end Blocks

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v30).slice (win0_2.rect t)).set ↔ _
  rw [View.set_slice_whole, Rect.mem_set_unit]
  exact Iff.rfl

/-- Every entry of the output array is written by some point: row `r` by the point `r / 4000`. -/
theorem cover (i : S100000x128.Idx) : ∃ t : Fin cfg0.N, (cfg0.win 2).flush t = true ∧ i ∈ ((cfg0.win 2).blk t).view.set := by
  have h0 : (i 0).val < 100000 := (i 0).isLt
  have h1 : (i 1).val < 128 := (i 1).isLt
  have ht : (i 0).val / 4000 < cfg0.N := by rw [show cfg0.N = 25 from N_0]; omega
  refine ⟨⟨(i 0).val / 4000, ht⟩, flush0_2 _, ?_⟩
  rw [mem_block]
  obtain ⟨-, -, -, -, e4, e5⟩ := idx_facts ⟨(i 0).val / 4000, ht⟩
  intro a
  match a with
  | ⟨0, _⟩ =>
    show win0_2.index ⟨(i 0).val / 4000, ht⟩ 0 * 4000 ≤ (i 0).val ∧ (i 0).val < win0_2.index ⟨(i 0).val / 4000, ht⟩ 0 * 4000 + 4000
    rw [e4]; show (i 0).val / 4000 * 4000 ≤ (i 0).val ∧ (i 0).val < (i 0).val / 4000 * 4000 + 4000; omega
  | ⟨1, _⟩ =>
    show win0_2.index ⟨(i 0).val / 4000, ht⟩ 1 * 128 ≤ (i 1).val ∧ (i 1).val < win0_2.index ⟨(i 0).val / 4000, ht⟩ 1 * 128 + 128
    rw [e5]; omega

/-- The output array of the first region, after its 25 points, is the whole product `x · W1` of the arrays the region
    finds in its two input windows. -/
theorem arr (V : (c : Dev nD) → (b : Ref sig .tc) → Buf (Elt Ideal) ((c : Thread nD τ).loc b)) (c : Dev nD) :
    (dat0 (F := Ideal) V c).arrAt 2 cfg0.N = Cert.Spec.dense1 (F := Ideal) (V c main_arg0) (V c main_arg2) :=
  (dat0 (F := Ideal) V c).arrAt_eq_of_cover 2 _ (fun t _ => flushed_eq V c t) cover

end Cert.KernelIdeal.Region0

end
-- ==== Proof.Region1.lean ====
/-
  The second pallas_call: 10 row blocks of 10000 rows. At a point the body adds the bias row (1 × 128) to every row of the
  point's block of the aggregated features (10000 × 128), takes the maximum with 0, and multiplies by the whole `W2`
  (128 × 32) into a zero accumulator. Entry (r, j) of the output array is Σ_k max (a[r, k] + row[0, k], 0) · W2[k, j]: the
  same sum the reference's whole-array form has there.
-/
import proofs.«152468_j3307124818738_1_alg».proof.Proof.Gen.KernelIdeal.Frame
import proofs.«152468_j3307124818738_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat Cfg Window)

/-! ## The body's product at an entry -/

/-- The left operand of the body's product is read at the output's row. -/
theorem lhs_body_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
/-- and at the summation index as its column. -/
theorem lhs_body_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
/-- The right operand is read at the summation index as its row -/
theorem rhs_body_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
/-- and at the output's column. -/
theorem rhs_body_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The bias row, broadcast to the block's rows, read at (p, k) is the row's entry k. -/
theorem row_bcast_apply (v0 : Vec Ideal S1x128 .f32) (h : S1x128.Broadcasts S10000x128) (p : Fin 10000) (k : Fin 128) :
    broadcastTo S10000x128 v0 h (ValueIdx.ix2 p k) = v0 (ValueIdx.ix2 (0 : Fin 1) k) := by
  refine broadcastTo_apply v0 h _ _ fun a => ?_
  match a with
  | ⟨0, _⟩ => rfl
  | ⟨1, _⟩ => rfl

/-- THE BODY AT AN ENTRY: entry (p, q) of what the body stores is Σ_k max (blk[p, k] + row[0, k], 0) · W2[k, q]. -/
theorem body_apply (v0 : Vec Ideal S1x128 .f32) (v4 : Vec Ideal S10000x128 .f32) (v10 : Vec Ideal S128x32 .f32)
    (p : Fin 10000) (q : Fin 32) :
    k1_pay1 v0 v4 v10 (ValueIdx.ix2 p q)
      = ∑ k : Fin 128, max (v4 (ValueIdx.ix2 p k) + v0 (ValueIdx.ix2 (0 : Fin 1) k)) (Ideal.ofBits .f32 0x00000000#32) * v10 (ValueIdx.ix2 k q) := by
  unfold k1_pay1
  refine (Ideal.matmul_constant_zero_apply dot_S10000x128_S128x32_S10000x32_1_0_0_1_n_n none _ _ (ValueIdx.ix2 p q)).trans ?_
  rw [← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx (ValueIdx.ix2 p q) ((ValueIdx.contrEquiv1 dot_S10000x128_S128x32_S10000x32_1_0_0_1_n_n 128 rfl rfl).symm k) = ValueIdx.ix2 p k := funext fun a => Fin.ext (by
    match a with
    | ⟨0, _⟩ => exact lhs_body_0 _ _
    | ⟨1, _⟩ => exact (lhs_body_1 _ _).trans hk)
  have er : dot_S10000x128_S128x32_S10000x32_1_0_0_1_n_n.rhsIdx (ValueIdx.ix2 p q) ((ValueIdx.contrEquiv1 dot_S10000x128_S128x32_S10000x32_1_0_0_1_n_n 128 rfl rfl).symm k) = ValueIdx.ix2 k q := funext fun a => Fin.ext (by
    match a with
    | ⟨0, _⟩ => exact (rhs_body_0 _ _).trans hk
    | ⟨1, _⟩ => exact rhs_body_1 _ _)
  rw [el, er]
  refine congrArg (· * v10 (ValueIdx.ix2 k q)) ?_
  show max (shapeCast S10000x128 v4 _ (ValueIdx.ix2 p k) + broadcastTo S10000x128 (shapeCast S1x128 (shapeCast S1x128 v0 _) _) _ (ValueIdx.ix2 p k)) _ = _
  rw [shapeCast_self, shapeCast_self, shapeCast_self, row_bcast_apply]
  rfl

/-! ## The reference's product at an entry -/

/-- The left operand of the reference's product is read at the output's row -/
theorem lhs_ref_0 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x32_S100000x32_1_0_0_1_n_n.lhsBatch by decide), dif_pos (show (0 : Fin Cert.ReferenceIdeal.S100000x128.rank) ∈ Cert.ReferenceIdeal.dot_S100000x128_S128x32_S100000x32_1_0_0_1_n_n.lhsNonContracting by decide)]
  rfl
/-- and at the summation index as its column. -/
theorem lhs_ref_1 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.lhsIdx i q 1).val = (q ⟨0, by decide⟩).val :=
  Cert.ReferenceIdeal.dot_S100000x128_S128x32_S100000x32_1_0_0_1_n_n.lhsIdx_val_of_single rfl i q
/-- The right operand is read at the summation index as its row -/
theorem rhs_ref_0 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.rhsIdx i q 0).val = (q ⟨0, by decide⟩).val :=
  Cert.ReferenceIdeal.dot_S100000x128_S128x32_S100000x32_1_0_0_1_n_n.rhsIdx_val_of_single rfl i q
/-- and at the output's column. -/
theorem rhs_ref_1 (i : Cert.ReferenceIdeal.S100000x32.Idx) (q : Cert.ReferenceIdeal.dot_S100000x128_S128x32_S100000x32_1_0_0_1_n_n.contr.Idx) :
    (Cert.ReferenceIdeal.dot_S100000x128_S128x32_S100000x32_1_0_0_1_n_n.rhsIdx i q 1).val = (i 1).val := by
  unfold DotDims.rhsIdx
  rw [dif_neg (show ¬(1 : Fin Cert.ReferenceIdeal.S128x32.rank) ∈ Cert.ReferenceIdeal.dot_S100000x128_S128x32_S100000x32_1_0_0_1_n_n.rhsBatch by decide), dif_pos (show (1 : Fin Cert.ReferenceIdeal.S128x32.rank) ∈ Cert.ReferenceIdeal.dot_S100000x128_S128x32_S100000x32_1_0_0_1_n_n.rhsNonContracting by decide)]
  rfl

/-- The bias row, broadcast to every row of the array, read at (r, k) is the row's entry k. -/
theorem row_bcastInDim_apply (row : (⟨Cert.ReferenceIdeal.S1x128, .f32⟩ : BufTy).Contents (Elt Ideal))
    (h : Cert.ReferenceIdeal.S1x128.BroadcastsInDim Cert.ReferenceIdeal.S100000x128 (![0, 1] : Fin 2 → Fin Cert.ReferenceIdeal.S100000x128.rank))
    (r : Fin 100000) (k : Fin 128) :
    broadcastInDim Cert.ReferenceIdeal.S100000x128 ![0, 1] h row (ValueIdx.ix2 r k) = row (ValueIdx.ix2 (0 : Fin 1) k) := by
  refine broadcastInDim_apply _ h row _ _ fun a => ?_
  match a with
  | ⟨0, _⟩ => rfl
  | ⟨1, _⟩ => rfl

/-- THE REFERENCE AT AN ENTRY: entry (r, q) of `max (a + row, 0) · W2` is Σ_k max (a[r, k] + row[0, k], 0) · W2[k, q]. -/
theorem dense2Row_apply (a : (⟨Cert.ReferenceIdeal.S100000x128, .f32⟩ : BufTy).Contents (Elt Ideal))
    (row : (⟨Cert.ReferenceIdeal.S1x128, .f32⟩ : BufTy).Contents (Elt Ideal))
    (W2 : (⟨Cert.ReferenceIdeal.S128x32, .f32⟩ : BufTy).Contents (Elt Ideal)) (r : Fin 100000) (q : Fin 32) :
    Cert.Spec.dense2Row (F := Ideal) a row W2 (ValueIdx.ix2 r q)
      = ∑ k : Fin 128, max (a (ValueIdx.ix2 r k) + row (ValueIdx.ix2 (0 : Fin 1) k)) (Ideal.ofBits .f32 0x00000000#32) * W2 (ValueIdx.ix2 k q) := by
  unfold Cert.Spec.dense2Row
  simp only [Host.dotGeneral]
  rw [Ideal.dotGeneral_apply, ← Equiv.sum_comp (ValueIdx.contrEquiv1 Cert.ReferenceIdeal.dot_S100000x128_S128x32_S100000x32_1_0_0_1_n_n 128 rfl rfl).symm]
  refine Finset.sum_congr rfl fun k _ => ?_
  have hk := ValueIdx.contrEquiv1_symm_val Cert.ReferenceIdeal.dot_S100000x128_S128x32_S100000x32_1_0_0_1_n_n 128 rfl rfl k
  have el : Cert.ReferenceIdeal.dot_S100000x128_S128x32_S100000x32_1_0_0_1_n_n.lhsIdx (ValueIdx.ix2 r q) ((ValueIdx.contrEquiv1 Cert.ReferenceIdeal.dot_S100000x128_S128x32_S100000x32_1_0_0_1_n_n 128 rfl rfl).symm k) = ValueIdx.ix2 r k := funext fun a => Fin.ext (by
    match a with
    | ⟨0, _⟩ => exact lhs_ref_0 _ _
    | ⟨1, _⟩ => exact (lhs_ref_1 _ _).trans hk)
  have er : Cert.ReferenceIdeal.dot_S100000x128_S128x32_S100000x32_1_0_0_1_n_n.rhsIdx (ValueIdx.ix2 r q) ((ValueIdx.contrEquiv1 Cert.ReferenceIdeal.dot_S100000x128_S128x32_S100000x32_1_0_0_1_n_n 128 rfl rfl).symm k) = ValueIdx.ix2 k q := funext fun a => Fin.ext (by
    match a with
    | ⟨0, _⟩ => exact (rhs_ref_0 _ _).trans hk
    | ⟨1, _⟩ => exact rhs_ref_1 _ _)
  rw [el, er]
  refine congrArg (· * W2 (ValueIdx.ix2 k q)) ?_
  show max (a (ValueIdx.ix2 r k) + broadcastInDim Cert.ReferenceIdeal.S100000x128 ![0, 1] _ row (ValueIdx.ix2 r k)) _ = _
  rw [row_bcastInDim_apply]
  rfl

/-! ## What a point writes back -/

theorem hz : (![0, 0] : Fin 2 → Nat) = fun _ => 0 := funext fun a => by fin_cases a <;> rfl

/-- The printed index maps over the grid: point `t` reads row block `t` of the features and writes row block `t` of the
    result; the bias row and `W2` are whole at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Blocks
variable (V : (c : Dev nD) → (b : Ref sig .tc) → Buf (Elt Ideal) ((c : Thread nD τ).loc b))

/-- Row `p` of the features' block at point `t` is row `10000 t + p` of the features. -/
theorem feat_block_apply (c : Dev nD) (t : Fin cfg1.N) (p : Fin 10000) (k : Fin 128) (r : Fin 100000)
    (hr : r.val = t.val * 10000 + p.val) :
    (iblk1 (F := Ideal) V c 0 t : Vec Ideal S10000x128 .f32) (ValueIdx.ix2 p k)
      = (V c main_v43 : S100000x128.Idx → Elt Ideal .f32) (ValueIdx.ix2 r k) := by
  obtain ⟨e0, e1, -⟩ := idx_facts t
  unfold iblk1
  show V c main_v43 (((cfg1.win 0).blk t).view.emb (ValueIdx.ix2 p k)) = V c main_v43 (ValueIdx.ix2 r k)
  refine congrArg (V c main_v43) (funext fun a => Fin.ext ?_)
  match a with
  | ⟨0, _⟩ => show win1_0.index t (0 : Fin 2) * 10000 + 1 * p.val = r.val; omega
  | ⟨1, _⟩ => show win1_0.index t (1 : Fin 2) * 128 + 1 * k.val = k.val; omega

/-- The bias row's block at every point is the bias row. -/
theorem row_block_apply (c : Dev nD) (t : Fin cfg1.N) (k : Fin 128) :
    (iblk1 (F := Ideal) V c 1 t : Vec Ideal S1x128 .f32) (ValueIdx.ix2 (0 : Fin 1) k)
      = (V c main_v44 : S1x128.Idx → Elt Ideal .f32) (ValueIdx.ix2 (0 : Fin 1) k) := by
  obtain ⟨-, -, e0, e1, -⟩ := idx_facts t
  unfold iblk1
  show V c main_v44 (((cfg1.win 1).blk t).view.emb (ValueIdx.ix2 (0 : Fin 1) k)) = V c main_v44 (ValueIdx.ix2 (0 : Fin 1) k)
  refine congrArg (V c main_v44) (funext fun a => Fin.ext ?_)
  match a with
  | ⟨0, _⟩ => show win1_1.index t (0 : Fin 2) * 1 + 1 * 0 = 0; omega
  | ⟨1, _⟩ => show win1_1.index t (1 : Fin 2) * 128 + 1 * k.val = k.val; omega

/-- `W2`'s block at every point is `W2`. -/
theorem w2_block_apply (c : Dev nD) (t : Fin cfg1.N) (k : Fin 128) (q : Fin 32) :
    (iblk1 (F := Ideal) V c 2 t : Vec Ideal S128x32 .f32) (ValueIdx.ix2 k q)
      = (V c main_arg4 : S128x32.Idx → Elt Ideal .f32) (ValueIdx.ix2 k q) := by
  obtain ⟨-, -, -, -, e0, e1, -⟩ := idx_facts t
  unfold iblk1
  show V c main_arg4 (((cfg1.win 2).blk t).view.emb (ValueIdx.ix2 k q)) = V c main_arg4 (ValueIdx.ix2 k q)
  refine congrArg (V c main_arg4) (funext fun a => Fin.ext ?_)
  match a with
  | ⟨0, _⟩ => show win1_2.index t (0 : Fin 2) * 128 + 1 * k.val = k.val; omega
  | ⟨1, _⟩ => show win1_2.index t (1 : Fin 2) * 32 + 1 * q.val = q.val; omega

/-- WHAT POINT `t` WRITES BACK is block `t` of `max (a + row, 0) · W2` of the arrays the region finds. -/
theorem flushed_eq (c : Dev nD) (t : Fin cfg1.N) :
    (dat1 (F := Ideal) V c).flushed 3 t
      = ((cfg1.win 3).blk t).view.read (Elt Ideal) (Cert.Spec.dense2Row (F := Ideal) (V c main_v43) (V c main_v44) (V c main_arg4)) := by
  show (cfg1.win 3).cut (grid1.coords t) ((dat1 (F := Ideal) V c).after 3 t) = _
  rw [after1_3]
  unfold out1_3
  rw [View.canon_unit_zero hz]
  simp only [View.ld_unit_zero (S := S1x128) hz, View.ld_unit_zero (S := S10000x128) hz, View.ld_unit_zero (S := S128x32) hz]
  obtain ⟨-, -, -, -, -, -, e0, e1⟩ := idx_facts t
  have hN : t.val < 10 := Nat.lt_of_lt_of_eq t.isLt N_1
  funext j
  have hp : (j 0).val < 10000 := (j 0).isLt
  have hq : (j 1).val < 32 := (j 1).isLt
  have hr : t.val * 10000 + (j 0).val < 100000 := by omega
  have ej : (cfg1.win 3).xinj (grid1.coords t) j = ValueIdx.ix2 (⟨(j 0).val, hp⟩ : Fin 10000) (⟨(j 1).val, hq⟩ : Fin 32) :=
    funext fun a => Fin.ext (by
      match a with
      | ⟨0, _⟩ => rfl
      | ⟨1, _⟩ => rfl)
  have ei : ((cfg1.win 3).blk t).view.emb j = ValueIdx.ix2 (⟨t.val * 10000 + (j 0).val, hr⟩ : Fin 100000) (⟨(j 1).val, hq⟩ : Fin 32) :=
    funext fun a => Fin.ext (by
      match a with
      | ⟨0, _⟩ => show win1_3.index t (0 : Fin 2) * 10000 + 1 * (j 0).val = t.val * 10000 + (j 0).val; omega
      | ⟨1, _⟩ => show win1_3.index t (1 : Fin 2) * 32 + 1 * (j 1).val = (j 1).val; omega)
  show k1_pay1 (iblk1 V c 1 t) (iblk1 V c 0 t) (iblk1 V c 2 t) ((cfg1.win 3).xinj (grid1.coords t) j)
      = Cert.Spec.dense2Row (F := Ideal) (V c main_v43) (V c main_v44) (V c main_arg4) (((cfg1.win 3).blk t).view.emb j)
  rw [ej, ei]
  refine (body_apply (iblk1 V c 1 t) (iblk1 V c 0 t) (iblk1 V c 2 t) _ _).trans ?_
  refine Eq.trans ?_ (dense2Row_apply (V c main_v43) (V c main_v44) (V c main_arg4) _ _).symm
  refine Finset.sum_congr rfl fun k _ => ?_
  rw [feat_block_apply V c t ⟨(j 0).val, hp⟩ k ⟨t.val * 10000 + (j 0).val, hr⟩ rfl, row_block_apply V c t k, w2_block_apply V c t k ⟨(j 1).val, hq⟩]

end Blocks

/-! ## From the blocks to the array -/

/-- An index of the result array is in point `t`'s block iff each coordinate is in the block's range on its axis. -/
theorem mem_blk (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v45).slice (win1_3.rect t)).set ↔ _
  rw [View.set_slice_whole, Rect.mem_set_unit]
  exact Iff.rfl

/-- Every entry of the result array is written back: row `r` by point `r / 10000`. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 10 := N_1
  have ht : (i 0).val / 10000 < cfg1.N := by rw [hN]; omega
  obtain ⟨-, -, -, -, -, -, e0, e1⟩ := idx_facts ⟨(i 0).val / 10000, ht⟩
  have e0' : win1_3.index ⟨(i 0).val / 10000, ht⟩ (0 : Fin 2) = (i 0).val / 10000 := e0
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    omega
  | ⟨1, _⟩ =>
    show win1_3.index ⟨(i 0).val / 10000, ht⟩ (1 : Fin 2) * 32 ≤ (i 1).val ∧ (i 1).val < win1_3.index ⟨(i 0).val / 10000, ht⟩ (1 : Fin 2) * 32 + 32
    omega

/-- The output array of the second region, after its 10 points, is `max (a + row, 0) · W2` of the arrays the region finds
    in its three input windows. -/
theorem arr (V : (c : Dev nD) → (b : Ref sig .tc) → Buf (Elt Ideal) ((c : Thread nD τ).loc b)) (c : Dev nD) :
    (dat1 (F := Ideal) V c).arrAt 3 cfg1.N
      = Cert.Spec.dense2Row (F := Ideal) (V c main_v43) (V c main_v44) (V c main_arg4) :=
  (dat1 (F := Ideal) V c).arrAt_eq_of_cover 3 _ (fun t _ => flushed_eq V c t) cover

end Cert.KernelIdeal.Region1

end
-- ==== Proof.KernelHost.lean ====
/-
  The kernel's program between its regions is the reference's own host chain. Read stretch by stretch:
    * before the first region the host builds `src`, `dst` and `nrm` from the edge list and touches no float argument;
    * between the regions it aggregates the first region's output (`agg128`) and lays the bias `b1` out as a row;
    * after the second region it aggregates that region's output (`agg32`) and adds `b2`.
  A region changes only its own arrays. So the result array, read back through the fold of stretches and regions from the
  launch memory, is the network function of the arguments with the two regions' output arrays as its dense layers, and
  those are the reference's dense layers (`Region0.arr`, `Region1.arr`).
-/
import proofs.«152468_j3307124818738_1_alg».proof.Proof.Gen.KernelIdeal.Frame
import proofs.«152468_j3307124818738_1_alg».proof.Proof.Spec
import proofs.«152468_j3307124818738_1_alg».proof.Proof.Region0
import proofs.«152468_j3307124818738_1_alg».proof.Proof.Region1
import Idealize.ShloMosaic.Lib.Pipeline.Value
import Idealize.ShloMosaic.Lib.ValueIdx
import Idealize.ShloMosaic.Lib.ValueLayout

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

/-! ## Each host stretch from ANY contents `W`: what it writes, and what it leaves -/

section Stretches

variable {F : FTy → Type} [FloatOps F] (W : Valuation τ sig (Elt F))

/-- The three lists before the first region, as one fold. -/
abbrev pre : Valuation τ sig (Elt F) := StableHlo.after (hostOps0_2 (F := F)) (StableHlo.after (hostOps0_1 (F := F)) (StableHlo.after (hostOps0 (F := F)) W))

theorem pre_src : pre W (Proc.devRef .tc main_v3) = Cert.Spec.srcOf (F := F) (W (Proc.devRef .tc main_arg1)) := by
  unfold Cert.Spec.srcOf
  after_results_simp <;> rfl

theorem pre_dst : pre W (Proc.devRef .tc main_v6) = Cert.Spec.dstOf (F := F) (W (Proc.devRef .tc main_arg1)) := by
  unfold Cert.Spec.dstOf
  after_results_simp <;> rfl

theorem pre_nrm : pre W (Proc.devRef .tc main_v29)
    = Cert.Spec.nrmOf (F := F) (Cert.Spec.srcOf (F := F) (W (Proc.devRef .tc main_arg1))) (Cert.Spec.dstOf (F := F) (W (Proc.devRef .tc main_arg1))) := by
  unfold Cert.Spec.nrmOf Cert.Spec.dinvOf Cert.Spec.degOf Cert.Spec.colIdx Cert.Spec.wrapIdx Cert.Spec.srcOf Cert.Spec.dstOf
  after_results_simp <;> rfl

theorem pre_arg0 : pre W (Proc.devRef .tc main_arg0) = W (Proc.devRef .tc main_arg0) := by after_results_simp <;> rfl
theorem pre_arg2 : pre W (Proc.devRef .tc main_arg2) = W (Proc.devRef .tc main_arg2) := by after_results_simp <;> rfl
theorem pre_arg3 : pre W (Proc.devRef .tc main_arg3) = W (Proc.devRef .tc main_arg3) := by after_results_simp <;> rfl
theorem pre_arg4 : pre W (Proc.devRef .tc main_arg4) = W (Proc.devRef .tc main_arg4) := by after_results_simp <;> rfl
theorem pre_arg5 : pre W (Proc.devRef .tc main_arg5) = W (Proc.devRef .tc main_arg5) := by after_results_simp <;> rfl

/-- Between the regions: the aggregation of the first region's output. -/
theorem mid_agg : StableHlo.after (hostOps1 (F := F)) W (Proc.devRef .tc main_v43)
    = Cert.Spec.agg128 (F := F) (W (Proc.devRef .tc main_v3)) (W (Proc.devRef .tc main_v6)) (W (Proc.devRef .tc main_v29)) (W (Proc.devRef .tc main_v30)) := by
  unfold Cert.Spec.agg128 Cert.Spec.colIdx Cert.Spec.wrapIdx
  after_results_simp <;> rfl

/-- Between the regions: the bias as a row, by a reshape. -/
theorem mid_row : StableHlo.after (hostOps1 (F := F)) W (Proc.devRef .tc main_v44)
    = shapeCast S1x128 (W (Proc.devRef .tc main_arg3)) shapeCasts_S128_S1x128 := by
  after_results_simp <;> rfl

theorem mid_src : StableHlo.after (hostOps1 (F := F)) W (Proc.devRef .tc main_v3) = W (Proc.devRef .tc main_v3) := by after_results_simp <;> rfl
theorem mid_dst : StableHlo.after (hostOps1 (F := F)) W (Proc.devRef .tc main_v6) = W (Proc.devRef .tc main_v6) := by after_results_simp <;> rfl
theorem mid_nrm : StableHlo.after (hostOps1 (F := F)) W (Proc.devRef .tc main_v29) = W (Proc.devRef .tc main_v29) := by after_results_simp <;> rfl
theorem mid_arg4 : StableHlo.after (hostOps1 (F := F)) W (Proc.devRef .tc main_arg4) = W (Proc.devRef .tc main_arg4) := by after_results_simp <;> rfl
theorem mid_arg5 : StableHlo.after (hostOps1 (F := F)) W (Proc.devRef .tc main_arg5) = W (Proc.devRef .tc main_arg5) := by after_results_simp <;> rfl

/-- After the second region: the aggregation of its output, plus the class bias. -/
theorem post_out : StableHlo.after (hostOps2 (F := F)) W (Proc.devRef .tc main_v61)
    = Cert.Spec.outOf (F := F) (W (Proc.devRef .tc main_v3)) (W (Proc.devRef .tc main_v6)) (W (Proc.devRef .tc main_v29)) (W (Proc.devRef .tc main_v45)) (W (Proc.devRef .tc main_arg5)) := by
  unfold Cert.Spec.outOf Cert.Spec.agg32 Cert.Spec.colIdx Cert.Spec.wrapIdx
  after_results_simp <;> rfl

end Stretches

/-! ## The bias row: a reshape of `b1` and its broadcast along a new leading axis are the same row -/

theorem row_eq (b1 : (⟨Cert.ReferenceIdeal.S128, .f32⟩ : BufTy).Contents (Elt Ideal)) :
    shapeCast S1x128 b1 shapeCasts_S128_S1x128
      = broadcastInDim Cert.ReferenceIdeal.S1x128 ![1] Cert.ReferenceIdeal.Facts₀.bcast_S128_S1x128_1 b1 := by
  funext j
  obtain ⟨u, i, rfl⟩ : ∃ (u : Fin 1) (i : Fin 128), j = ValueIdx.ix2 u i := ⟨j 0, j 1, ValueIdx.eq_ix2 j⟩
  rw [ValueIdx.shapeCast_a_1a_apply]
  exact (broadcastInDim_apply _ _ b1 (ValueIdx.ix2 u i) (ValueIdx.ix1 i) (fun a => match a with
    | ⟨0, _⟩ => by show i.val = if (128 : Nat) = 1 then 0 else i.val; rw [if_neg (by decide)])).symm

/-! ## The fold from the launch memory, boundary by boundary, at the ideal values -/

section Fold

variable (m : (ℓ : Loc nD τ sig) → Buf (Elt Ideal) ℓ) (ρ : Dev nD → PrngReg) (c : Dev nD)

theorem W3_src : W3 m ρ c (Proc.devRef .tc main_v3) = Cert.Spec.srcOf (F := Ideal) (m ((c : Thread nD τ).loc main_arg1)) := pre_src (W0 m ρ c)
theorem W3_dst : W3 m ρ c (Proc.devRef .tc main_v6) = Cert.Spec.dstOf (F := Ideal) (m ((c : Thread nD τ).loc main_arg1)) := pre_dst (W0 m ρ c)
theorem W3_nrm : W3 m ρ c (Proc.devRef .tc main_v29)
    = Cert.Spec.nrmOf (F := Ideal) (Cert.Spec.srcOf (F := Ideal) (m ((c : Thread nD τ).loc main_arg1))) (Cert.Spec.dstOf (F := Ideal) (m ((c : Thread nD τ).loc main_arg1))) := pre_nrm (W0 m ρ c)
theorem W3_arg0 : W3 m ρ c (Proc.devRef .tc main_arg0) = m ((c : Thread nD τ).loc main_arg0) := pre_arg0 (W0 m ρ c)
theorem W3_arg2 : W3 m ρ c (Proc.devRef .tc main_arg2) = m ((c : Thread nD τ).loc main_arg2) := pre_arg2 (W0 m ρ c)
theorem W3_arg3 : W3 m ρ c (Proc.devRef .tc main_arg3) = m ((c : Thread nD τ).loc main_arg3) := pre_arg3 (W0 m ρ c)
theorem W3_arg4 : W3 m ρ c (Proc.devRef .tc main_arg4) = m ((c : Thread nD τ).loc main_arg4) := pre_arg4 (W0 m ρ c)
theorem W3_arg5 : W3 m ρ c (Proc.devRef .tc main_arg5) = m ((c : Thread nD τ).loc main_arg5) := pre_arg5 (W0 m ρ c)

/-- The first region's output array, at its exit: `x · W1`. -/
theorem W4_h1 : W4 m ρ c (Proc.devRef .tc main_v30)
    = Cert.Spec.dense1 (F := Ideal) (m ((c : Thread nD τ).loc main_arg0)) (m ((c : Thread nD τ).loc main_arg2)) := by
  refine (W4_arr m ρ c 2).trans ((Cert.KernelIdeal.Region0.arr (V3 m ρ) c).trans ?_)
  show Cert.Spec.dense1 (F := Ideal) (W3 m ρ c (Proc.devRef .tc main_arg0)) (W3 m ρ c (Proc.devRef .tc main_arg2)) = _
  rw [W3_arg0, W3_arg2]

theorem W4_src : W4 m ρ c (Proc.devRef .tc main_v3) = W3 m ρ c (Proc.devRef .tc main_v3) := W4_of_ne m ρ c main_v3 (by decide)
theorem W4_dst : W4 m ρ c (Proc.devRef .tc main_v6) = W3 m ρ c (Proc.devRef .tc main_v6) := W4_of_ne m ρ c main_v6 (by decide)
theorem W4_nrm : W4 m ρ c (Proc.devRef .tc main_v29) = W3 m ρ c (Proc.devRef .tc main_v29) := W4_of_ne m ρ c main_v29 (by decide)
theorem W4_arg3 : W4 m ρ c (Proc.devRef .tc main_arg3) = W3 m ρ c (Proc.devRef .tc main_arg3) := W4_of_ne m ρ c main_arg3 (by decide)
theorem W4_arg4 : W4 m ρ c (Proc.devRef .tc main_arg4) = W3 m ρ c (Proc.devRef .tc main_arg4) := W4_of_ne m ρ c main_arg4 (by decide)
theorem W4_arg5 : W4 m ρ c (Proc.devRef .tc main_arg5) = W3 m ρ c (Proc.devRef .tc main_arg5) := W4_of_ne m ρ c main_arg5 (by decide)

/-- The second region's output array, at its exit: the reference's second dense layer of the aggregated `x · W1`. -/
theorem W6_h2 : W6 m ρ c (Proc.devRef .tc main_v45)
    = Cert.Spec.dense2 (F := Ideal)
        (Cert.Spec.agg128 (F := Ideal) (Cert.Spec.srcOf (F := Ideal) (m ((c : Thread nD τ).loc main_arg1))) (Cert.Spec.dstOf (F := Ideal) (m ((c : Thread nD τ).loc main_arg1)))
          (Cert.Spec.nrmOf (F := Ideal) (Cert.Spec.srcOf (F := Ideal) (m ((c : Thread nD τ).loc main_arg1))) (Cert.Spec.dstOf (F := Ideal) (m ((c : Thread nD τ).loc main_arg1))))
          (Cert.Spec.dense1 (F := Ideal) (m ((c : Thread nD τ).loc main_arg0)) (m ((c : Thread nD τ).loc main_arg2))))
        (m ((c : Thread nD τ).loc main_arg3)) (m ((c : Thread nD τ).loc main_arg4)) := by
  refine (W6_arr m ρ c 3).trans ((Cert.KernelIdeal.Region1.arr (V5 m ρ) c).trans ?_)
  show Cert.Spec.dense2Row (F := Ideal) (StableHlo.after hostOps1 (W4 m ρ c) (Proc.devRef .tc main_v43)) (StableHlo.after hostOps1 (W4 m ρ c) (Proc.devRef .tc main_v44)) (StableHlo.after hostOps1 (W4 m ρ c) (Proc.devRef .tc main_arg4)) = _
  rw [mid_agg, mid_row, mid_arg4, W4_src, W4_dst, W4_nrm, W4_h1, W4_arg3, W4_arg4, W3_src, W3_dst, W3_nrm, W3_arg3, W3_arg4, row_eq]
  rfl

/-- THE RESULT ARRAY at the last boundary is the network function of the six arguments. -/
theorem W7_out : W7 m ρ c (Proc.devRef .tc main_v61)
    = Cert.Spec.result (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  show StableHlo.after hostOps2 (W6 m ρ c) (Proc.devRef .tc main_v61) = _
  rw [post_out, W6_h2,
    W6_of_ne m ρ c main_v3 (by decide), W6_of_ne m ρ c main_v6 (by decide), W6_of_ne m ρ c main_v29 (by decide), W6_of_ne m ρ c main_arg5 (by decide)]
  show Cert.Spec.outOf (F := Ideal) (StableHlo.after hostOps1 (W4 m ρ c) (Proc.devRef .tc main_v3)) (StableHlo.after hostOps1 (W4 m ρ c) (Proc.devRef .tc main_v6)) (StableHlo.after hostOps1 (W4 m ρ c) (Proc.devRef .tc main_v29)) _ (StableHlo.after hostOps1 (W4 m ρ c) (Proc.devRef .tc main_arg5)) = _
  rw [mid_src, mid_dst, mid_nrm, mid_arg5, W4_src, W4_dst, W4_nrm, W4_arg5, W3_src, W3_dst, W3_nrm, W3_arg5]
  rfl

end Fold

end Cert.KernelIdeal.HostSide

end
-- ==== Proof.RefSide.lean ====
/-
  The reference program computes `Spec.result` of its six arguments: its composed term is, operation for operation,
  the shared chain (`src`, `dst`, `nrm`, the two aggregations, the closing bias) around the two dense layers
  `x · W1` and `max (· + b1, 0) · W2`. Its run is then re-posted over that function.
-/
import proofs.«152468_j3307124818738_1_alg».proof.Proof.RefRun
import proofs.«152468_j3307124818738_1_alg».proof.Proof.Spec

noncomputable section

namespace Cert.ReferenceIdeal.RefSide

open Cert.ReferenceIdeal Idealize.ShloMosaic Idealize.ShloMosaic.TcCoe Idealize.SL.Sem

variable {F : FTy → Type} [FloatOps F]

set_option maxRecDepth 8192 in
/-- The reference's composed term is the network function of the argument arrays: the same operations in the same
    order, grouped under the names of `Spec`. -/
theorem result_eq (m : (ℓ : Loc nD τ sig) → Buf (Elt F) ℓ) (c : Dev nD) :
    RunP.res_main_v64 m c
      = Cert.Spec.result (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold RunP.res_main_v64 Cert.Spec.result Cert.Spec.network Cert.Spec.outOf Cert.Spec.agg32 Cert.Spec.agg128 Cert.Spec.nrmOf
    Cert.Spec.dinvOf Cert.Spec.degOf Cert.Spec.colIdx Cert.Spec.wrapIdx Cert.Spec.srcOf Cert.Spec.dstOf Cert.Spec.dense1 Cert.Spec.dense2 Cert.Spec.dense2Row
  rfl

/-- Every weakly fair execution of the reference terminates with its result at the network function of the arguments,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
        = Cert.Spec.result (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_eq m c), (h c).2⟩) (RunP.run m ρ)

end Cert.ReferenceIdeal.RefSide

end
-- ==== Proof.lean ====
/-
  A two-layer graph convolution over 100000 nodes and 1600000 edges (plus one self loop per node):

      out = agg₃₂ (max (agg₁₂₈ (x · W1) + b1, 0) · W2) + b2,     agg h = Σ_{edges j with dst j = ·} h[src j, ·] · nrm j,

  where `nrm j = deg^(-1/2)[src j] · deg^(-1/2)[dst j]` and `deg` counts the edges into a node.

  The kernel's program and the reference's build `src`, `dst`, `nrm` and both aggregations with the same host
  operations. They differ only in the two dense layers. The kernel computes `x · W1` in 25 row blocks of 4000 rows
  and `max (a + b1, 0) · W2` in 10 row blocks of 10000 rows, each block a product into a zero accumulator; the
  reference computes each as one product of whole arrays. On the extended reals a product's entry (r, j) is the sum
  over the contracted index k of the operands' products, a row's sum reads only that row of the left operand, and the
  row blocks tile the rows: so block by block and whole are the same array, with no use of finiteness (only a sum's
  terms are matched, nothing is distributed or cancelled). The format changes inside the kernel are the identity on the
  extended reals, and the idealization rewrote nothing, so `preserves` has no conjunct.

  The frames of the two kernel programs are the generated ones; the reference's frame is its run with the result dropped.
-/
import proofs.«152468_j3307124818738_1_alg».proof.Defs
import proofs.«152468_j3307124818738_1_alg».proof.Proof.Gen.Kernel
import proofs.«152468_j3307124818738_1_alg».proof.Proof.Gen.Kernel.Frame
import proofs.«152468_j3307124818738_1_alg».proof.Proof.Gen.KernelIdeal
import proofs.«152468_j3307124818738_1_alg».proof.Proof.Gen.KernelIdeal.Frame
import proofs.«152468_j3307124818738_1_alg».proof.Proof.Gen.ReferenceIdeal
import proofs.«152468_j3307124818738_1_alg».proof.Proof.Gen.Pre_finite_inputs
import proofs.«152468_j3307124818738_1_alg».proof.Proof.KernelRun
import proofs.«152468_j3307124818738_1_alg».proof.Proof.KernelHost
import proofs.«152468_j3307124818738_1_alg».proof.Proof.RefSide

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result dropped. -/
theorem frame_referenceIdeal : Cert.frame_ReferenceIdeal := fun m ρ _ =>
  (θ_run Cert.ReferenceIdeal.defs _ _).mono (fun _ h c => (h c).2) (Cert.ReferenceIdeal.RefSide.run (F := Ideal) m ρ)

/-- The idealization rewrote no operation. -/
theorem preserves : Cert.preserves_Kernel_KernelIdeal := trivial

/-- Both programs end with the network function of the six arguments in their result array: the kernel's by its run read
    back through its host stretches and regions, the reference's by its composed term; the arguments agree. -/
theorem algebraic : Cert.algebraic_KernelIdeal_ReferenceIdeal := by
  intro m ρ m' ρ' _ hagree
  refine ⟨fun c => Cert.Spec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostSide.W7_out m ρ c), (h c).2⟩)
      (Cert.KernelIdeal.RunNamed.run_named (F := Ideal) m ρ)
  · refine (θ_run Cert.ReferenceIdeal.defs _ _).mono (fun _ h c => ⟨(h c).1.trans ?_, (h c).2⟩)
      (Cert.ReferenceIdeal.RefSide.run (F := Ideal) m' ρ')
    obtain ⟨h0, h1, h2, h3, h4, h5⟩ := hagree c
    rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
